-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x2 : Shape := ⟨2, ![1000000, 2]⟩
abbrev S2x32000000 : Shape := ⟨2, ![2, 32000000]⟩
abbrev S32000000x1 : Shape := ⟨2, ![32000000, 1]⟩
abbrev S1x1 : Shape := ⟨2, ![1, 1]⟩
abbrev S1000000 : Shape := ⟨1, ![1000000]⟩
abbrev S_ : Shape := ⟨0, ![]⟩

class Facts : Prop where
  bcast_S_S1000000x2 : S_.BroadcastsInDim S1000000x2 (![] : Fin 0 → Fin S1000000x2.rank)
  reducesTo_S1000000x2_S_d0_1 : S1000000x2.ReducesTo [0, 1] S_
  h_S_ : 0 < S_.numel
  bcast_S_S32000000x1 : S_.BroadcastsInDim S32000000x1 (![] : Fin 0 → Fin S32000000x1.rank)
  reducesTo_S32000000x1_S_d0_1 : S32000000x1.ReducesTo [0, 1] S_
  bcast_S_S1x1 : S_.BroadcastsInDim S1x1 (![] : Fin 0 → Fin S1x1.rank)
  reducesTo_S1x1_S_d0_1 : S1x1.ReducesTo [0, 1] S_

variable [Facts]

def fn {F : FTy → Type} [FloatOps F] (main_arg0 : FVec F S1000000x2 .f32) (main_arg1 : IVec S2x32000000 32) (main_arg2 : FVec F S32000000x1 .f32) (main_arg3 : FVec F S1x1 .f32) (main_arg4 : IVec S1000000 32) : IVec S_ 1 :=
  let main_v0 : FVec F S1000000x2 .f32 := Host.absf main_arg0
  let main_cst : FVec F S_ .f32 := constant S_ .f32 0x7F800000#32
  let main_v1 : FVec F S1000000x2 .f32 := broadcastInDim S1000000x2 ![] bcast_S_S1000000x2 main_cst
  let main_v2 : IVec S1000000x2 1 := cmpf .olt main_v0 main_v1
  let main_c : IVec S_ 1 := constantI S_ 1 1#1
  let main_v3 : IVec S_ 1 := (fun x v => Host.reduce IntOp.andi x v reducesTo_S1000000x2_S_d0_1 h_S_) main_v2 main_c
  let main_v4 : FVec F S32000000x1 .f32 := Host.absf main_arg2
  let main_cst_0 : FVec F S_ .f32 := constant S_ .f32 0x7F800000#32
  let main_v5 : FVec F S32000000x1 .f32 := broadcastInDim S32000000x1 ![] bcast_S_S32000000x1 main_cst_0
  let main_v6 : IVec S32000000x1 1 := cmpf .olt main_v4 main_v5
  let main_c_1 : IVec S_ 1 := constantI S_ 1 1#1
  let main_v7 : IVec S_ 1 := (fun x v => Host.reduce IntOp.andi x v reducesTo_S32000000x1_S_d0_1 h_S_) main_v6 main_c_1
  let main_v8 : IVec S_ 1 := andi main_v3 main_v7
  let main_v9 : FVec F S1x1 .f32 := Host.absf main_arg3
  let main_cst_2 : FVec F S_ .f32 := constant S_ .f32 0x7F800000#32
  let main_v10 : FVec F S1x1 .f32 := broadcastInDim S1x1 ![] bcast_S_S1x1 main_cst_2
  let main_v11 : IVec S1x1 1 := cmpf .olt main_v9 main_v10
  let main_c_3 : IVec S_ 1 := constantI S_ 1 1#1
  let main_v12 : IVec S_ 1 := (fun x v => Host.reduce IntOp.andi x v reducesTo_S1x1_S_d0_1 h_S_) main_v11 main_c_3
  let main_v13 : IVec S_ 1 := andi main_v8 main_v12
  main_v13
-- ==== Kernel.lean ====
abbrev S1000000x2 : Shape := ⟨2, ![1000000, 2]⟩
abbrev S2x32000000 : Shape := ⟨2, ![2, 32000000]⟩
abbrev S32000000x1 : Shape := ⟨2, ![32000000, 1]⟩
abbrev S1x1 : Shape := ⟨2, ![1, 1]⟩
abbrev S1000000 : Shape := ⟨1, ![1000000]⟩
abbrev S1x32000000 : Shape := ⟨2, ![1, 32000000]⟩
abbrev S32000000 : Shape := ⟨1, ![32000000]⟩
abbrev S_ : Shape := ⟨0, ![]⟩
abbrev S1000000x1 : Shape := ⟨2, ![1000000, 1]⟩
abbrev S125000x2 : Shape := ⟨2, ![125000, 2]⟩
abbrev S125000x1 : Shape := ⟨2, ![125000, 1]⟩

abbrev nBuf : Space → Nat
  | .hbm => 12
  | .vmem => 6
  | .smem => 0
  | _ => 0

abbrev bufTy : (tb : Table) → Fin (tcTables nBuf tb) → BufTy
  | .hbm, ⟨0, _⟩ => ⟨S1000000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S1000000, .i32⟩
  | .hbm, ⟨5, _⟩ => ⟨S1x32000000, .i32⟩
  | .hbm, ⟨6, _⟩ => ⟨S32000000, .i32⟩
  | .hbm, ⟨7, _⟩ => ⟨S_, .f32⟩
  | .hbm, ⟨8, _⟩ => ⟨S1000000x1, .f32⟩
  | .hbm, ⟨9, _⟩ => ⟨S32000000x1, .i32⟩
  | .hbm, ⟨10, _⟩ => ⟨S1000000x1, .f32⟩
  | .hbm, ⟨11, _⟩ => ⟨S1000000x2, .f32⟩
  | .local _ .vmem, ⟨0, _⟩ => ⟨S125000x2, .f32⟩
  | .local _ .vmem, ⟨1, _⟩ => ⟨S125000x2, .f32⟩
  | .local _ .vmem, ⟨2, _⟩ => ⟨S125000x1, .f32⟩
  | .local _ .vmem, ⟨3, _⟩ => ⟨S125000x1, .f32⟩
  | .local _ .vmem, ⟨4, _⟩ => ⟨S125000x2, .f32⟩
  | .local _ .vmem, ⟨5, _⟩ => ⟨S125000x2, .f32⟩
  | _, _ => ⟨S1000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S125000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S125000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S125000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x32000000_S1x32000000_1_0 : S2x32000000.Slices ![1, 0] S1x32000000
  shapeCasts_S1x32000000_S32000000 : S1x32000000.ShapeCasts S32000000
  bcast_S_S1000000x1 : S_.BroadcastsInDim S1000000x1 (![] : Fin 0 → Fin S1000000x1.rank)
  bcast_S32000000_S32000000x1_0 : S32000000.BroadcastsInDim S32000000x1 (![0] : Fin 1 → Fin S32000000x1.rank)
  inb_S125000x2_S125000x1_0_0 : ∀ a, (![0, 0] : Fin 2 → Nat) a + S125000x1.size a ≤ S125000x2.size a
  h_S125000x1 : 0 < S125000x1.numel
  inb_S125000x1_S125000x1_0_0 : ∀ a, (![0, 0] : Fin 2 → Nat) a + S125000x1.size a ≤ S125000x1.size a
  shapeCasts_S125000x1_S125000x1 : S125000x1.ShapeCasts S125000x1
  inb_S125000x2_S125000x1_0_1 : ∀ a, (![0, 1] : Fin 2 → Nat) a + S125000x1.size a ≤ S125000x2.size a
  scatter_S1000000x1_S32000000x1_S32000000x1_1_0_0_1_wf : ScatterDims.WF S1000000x1 S32000000x1 S32000000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S125000x2.size a ≤ S1000000x2.size a
  hwx0_0 : ∀ i : grid0.Coords, EltTy.bits .f32 = 32 ∨ (Rect.block (s := S1000000x2) S125000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S125000x1.size a ≤ S1000000x1.size a
  hwx0_1 : ∀ i : grid0.Coords, EltTy.bits .f32 = 32 ∨ (Rect.block (s := S1000000x1) S125000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S125000x2.size a ≤ S1000000x2.size a
  hwx0_2 : ∀ i : grid0.Coords, EltTy.bits .f32 = 32 ∨ (Rect.block (s := S1000000x2) S125000x2.size (cc0_transform_2 i) (hinb0_2 i)).WholeWords (EltTy.packing .f32)

variable [Facts₀]

def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

abbrev win0_0 : Pipeline.Window sig grid0 :=
  Pipeline.Window.ofSpec (Memref.whole main_arg0) S125000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S125000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S125000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000x2 : Shape := ⟨2, ![1000000, 2]⟩
abbrev S2x32000000 : Shape := ⟨2, ![2, 32000000]⟩
abbrev S32000000x1 : Shape := ⟨2, ![32000000, 1]⟩
abbrev S1x1 : Shape := ⟨2, ![1, 1]⟩
abbrev S1000000 : Shape := ⟨1, ![1000000]⟩
abbrev S1000000x1 : Shape := ⟨2, ![1000000, 1]⟩
abbrev S1x32000000 : Shape := ⟨2, ![1, 32000000]⟩
abbrev S32000000 : Shape := ⟨1, ![32000000]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1000000x2, .f32⟩
  | .hbm, ⟨1, _⟩ => ⟨S2x32000000, .i32⟩
  | .hbm, ⟨2, _⟩ => ⟨S32000000x1, .f32⟩
  | .hbm, ⟨3, _⟩ => ⟨S1x1, .f32⟩
  | .hbm, ⟨4, _⟩ => ⟨S1000000, .i32⟩
  | .hbm, ⟨5, _⟩ => ⟨S1000000x1, .f32⟩
  | .hbm, ⟨6, _⟩ => ⟨S1x32000000, .i32⟩
  | .hbm, ⟨7, _⟩ => ⟨S32000000, .i32⟩
  | .hbm, ⟨8, _⟩ => ⟨S_, .f32⟩
  | .hbm, ⟨9, _⟩ => ⟨S1000000x1, .f32⟩
  | .hbm, ⟨10, _⟩ => ⟨S32000000x1, .i32⟩
  | .hbm, ⟨11, _⟩ => ⟨S1000000x1, .f32⟩
  | .hbm, ⟨12, _⟩ => ⟨S1000000x1, .f32⟩
  | .hbm, ⟨13, _⟩ => ⟨S1000000x2, .f32⟩
  | _, _ => ⟨S1000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  slices_S1000000x2_S1000000x1_0_0 : S1000000x2.Slices ![0, 0] S1000000x1
  slices_S2x32000000_S1x32000000_1_0 : S2x32000000.Slices ![1, 0] S1x32000000
  shapeCasts_S1x32000000_S32000000 : S1x32000000.ShapeCasts S32000000
  bcast_S_S1000000x1 : S_.BroadcastsInDim S1000000x1 (![] : Fin 0 → Fin S1000000x1.rank)
  bcast_S32000000_S32000000x1_0 : S32000000.BroadcastsInDim S32000000x1 (![0] : Fin 1 → Fin S32000000x1.rank)
  concatenates_S1000000x1_S1000000x1_S1000000x2_d1 : Shape.Concatenates [S1000000x1, S1000000x1] S1000000x2 1
  scatter_S1000000x1_S32000000x1_S32000000x1_1_0_0_1_wf : ScatterDims.WF S1000000x1 S32000000x1 S32000000x1 [1] [0] [0] 1

variable [Facts₀]

def scatter_S1000000x1_S32000000x1_S32000000x1_1_0_0_1 : ScatterDims S1000000x1 S32000000x1 S32000000x1 where
  updateWindowDims := [1]
  insertedWindowDims := [0]
  scatterDimsToOperandDims := [0]
  indexVectorDim := 1
  wf := scatter_S1000000x1_S32000000x1_S32000000x1_1_0_0_1_wf

class Facts : Prop extends Facts₀ where

variable [Facts]
-- ==== Proof.Update.lean ====
/-
  The vertex update as ONE function of two arrays of the same height: a two-column array v and a one-column array s.

  Row p of the result keeps v(p, 0) in column 0 and holds the product v(p, 0) · s(p, 0) in column 1; column 1 of v is
  never read. Nothing here depends on the float instance or on the height n, so the same function describes a block of
  rows and the whole array: where a block's rows are rows of the whole arrays, the update of the blocks is that block
  of rows of the update. Only the definition of the product enters: no law of arithmetic is used.
-/
import Idealize.ShloMosaic.PureOps.Ideal
import Idealize.ShloMosaic.Lib.ValueIdx

noncomputable section

namespace Cert.Update

open Idealize.ShloMosaic Idealize.ShloMosaic.ValueIdx

variable {F : FTy → Type} [FloatOps F]

/-- Entry (p, 0) is v(p, 0); entry (p, 1) is v(p, 0) · s(p, 0). -/
def update {n : Nat} (v : (⟨2, ![n, 2]⟩ : Shape).Idx → Elt F .f32) (s : (⟨2, ![n, 1]⟩ : Shape).Idx → Elt F .f32) :
    (⟨2, ![n, 2]⟩ : Shape).Idx → Elt F .f32 :=
  fun i => if (i 1).val = 0 then v (ix2 (i 0) (0 : Fin 2)) else FloatOps.mulf (v (ix2 (i 0) (0 : Fin 2))) (s (ix2 (i 0) (0 : Fin 1)))

/-- In column 0 the update is the first array itself. -/
theorem update_of_col0 {n : Nat} (v : (⟨2, ![n, 2]⟩ : Shape).Idx → Elt F .f32) (s : (⟨2, ![n, 1]⟩ : Shape).Idx → Elt F .f32)
    (i : (⟨2, ![n, 2]⟩ : Shape).Idx) (h : (i 1).val = 0) : update v s i = v i := by
  unfold update
  rw [if_pos h]
  refine congrArg v (funext fun a => ?_)
  match a with
  | ⟨0, _⟩ => rfl
  | ⟨1, _⟩ => exact Fin.ext h.symm

/-- In column 1 it is the product of the row's entry in column 0 of the first array with the row's entry of the second;
    the two entries may be named by any indices k, j with those coordinates. -/
theorem update_of_col1 {n : Nat} (v : (⟨2, ![n, 2]⟩ : Shape).Idx → Elt F .f32) (s : (⟨2, ![n, 1]⟩ : Shape).Idx → Elt F .f32)
    (i : (⟨2, ![n, 2]⟩ : Shape).Idx) (h : (i 1).val ≠ 0)
    (k : (⟨2, ![n, 2]⟩ : Shape).Idx) (j : (⟨2, ![n, 1]⟩ : Shape).Idx)
    (hk0 : (k 0).val = (i 0).val) (hk1 : (k 1).val = 0) (hj : (j 0).val = (i 0).val) :
    update v s i = FloatOps.mulf (v k) (s j) := by
  unfold update
  rw [if_neg h]
  have ek : ix2 (i 0) (0 : Fin 2) = k := funext fun a => by
    match a with
    | ⟨0, _⟩ => exact Fin.ext hk0.symm
    | ⟨1, _⟩ => exact Fin.ext hk1.symm
  have ej : ix2 (i 0) (0 : Fin 1) = j := funext fun a => by
    match a with
    | ⟨0, _⟩ => exact Fin.ext hj.symm
    | ⟨1, _⟩ => exact Fin.ext (show (0 : Nat) = (j 1).val by have := idx2_lt1 j; omega)
  exact congrArg₂ FloatOps.mulf (congrArg v ek) (congrArg s ej)

/-- A block of rows of the update is the update of the blocks: if i and j name the same column, and row (j 0) of the
    blocks bv, bs holds what row (i 0) of v, s holds (in column 0 of v, and in s), the two updates agree there. -/
theorem update_congr {n k : Nat} (v : (⟨2, ![n, 2]⟩ : Shape).Idx → Elt F .f32) (s : (⟨2, ![n, 1]⟩ : Shape).Idx → Elt F .f32)
    (bv : (⟨2, ![k, 2]⟩ : Shape).Idx → Elt F .f32) (bs : (⟨2, ![k, 1]⟩ : Shape).Idx → Elt F .f32)
    (j : (⟨2, ![k, 2]⟩ : Shape).Idx) (i : (⟨2, ![n, 2]⟩ : Shape).Idx) (h1 : (j 1).val = (i 1).val)
    (hv : bv (ix2 (j 0) (0 : Fin 2)) = v (ix2 (i 0) (0 : Fin 2)))
    (hs : bs (ix2 (j 0) (0 : Fin 1)) = s (ix2 (i 0) (0 : Fin 1))) :
    update bv bs j = update v s i := by
  unfold update
  rw [hv, hs, h1]

end Cert.Update

end
-- ==== Proof.KernelUpdate.lean ====
/-
  The kernel's output array is the vertex update of the arrays its region finds.

  At grid point t the body sees rows 125000·t … 125000·t + 124999 of the vertex array (both columns) and of the
  aggregate column. It stores the block's column 0 into column 0 of its output block, and the product of that column
  with the aggregate's block into column 1: two stores whose rectangles tile the output block, each holding the update
  of the two input blocks on its rectangle. So the block written back is the update of the blocks, which is that block
  of rows of the update of the whole arrays; the eight blocks cover every row, so the array after the run is the update.
  The aggregate column is what the host operations before the region leave: the scatter-sum of the edge values onto
  their destination rows, kept as the closed term the program prints.
-/
import proofs.«174618_j91096256348959_1_alg».proof.Proof.Gen.KernelIdeal.Value
import proofs.«174618_j91096256348959_1_alg».proof.Proof.Update
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable {F : FTy → Type} [FloatOps F]

/-! ## One point's block: the two stores are the update of the input blocks -/

theorem zero_offsets : (![0, 0] : Fin 2 → Nat) = fun _ => 0 := funext fun a => by fin_cases a <;> rfl

/-- The store into column 0 holds the loaded column 0 of the first block: at local index x it is the first block's
    entry (x 0, 0), and the update keeps that entry in column 0. -/
theorem piece_col0 (x0 : Vec F S125000x2 .f32) (x1 : Vec F S125000x1 .f32) (x : r0_0.shape.Idx) :
    View.ld x0 r0_0 x = Cert.Update.update (n := 125000) x0 x1 (r0_0.emb x) := by
  refine (Cert.Update.update_of_col0 (n := 125000) x0 x1 (r0_0.emb x) ?_).symm
  have h1 : (x 1).val < 1 := (x 1).isLt
  show 0 + 1 * (x 1).val = 0
  omega

/-- The store into column 1 holds the product of the loaded column 0 of the first block with the second block (the
    body's cast of the second block is to its own shape, and its load is of the whole block): at local index x the
    product of the entries (x 0, 0), which is the update's column 1 in row x 0. -/
theorem piece_col1 (x0 : Vec F S125000x2 .f32) (x1 : Vec F S125000x1 .f32) (x : r0_2.shape.Idx) :
    k0_pay1 (View.ld x0 r0_0) (View.ld x1 r0_1) x = Cert.Update.update (n := 125000) x0 x1 (r0_2.emb x) := by
  have h1 : (x 1).val < 1 := (x 1).isLt
  refine Eq.trans ?_ (Cert.Update.update_of_col1 (n := 125000) x0 x1 (r0_2.emb x)
    (show 1 + 1 * (x 1).val ≠ 0 by omega) (r0_0.emb x) x rfl (show 0 + 1 * (x 1).val = 0 by omega)
    (show (x 0).val = 0 + 1 * (x 0).val by omega)).symm
  unfold k0_pay1
  show FloatOps.mulf (x0 (r0_0.emb x)) (shapeCast S125000x1 (View.ld x1 r0_1) _ x) = FloatOps.mulf (x0 (r0_0.emb x)) (x1 x)
  refine congrArg (FloatOps.mulf (x0 (r0_0.emb x))) ?_
  exact congrFun ((shapeCast_self _ _).trans (View.ld_unit_zero zero_offsets _ x1)) x

/-- What the body leaves in its output block is the update of its two input blocks: both stores agree with the update
    on their rectangles, and the rectangles cover the block. -/
theorem out_eq (x0 : Vec F S125000x2 .f32) (x1 : Vec F S125000x1 .f32) :
    out0_2 x0 x1 = Cert.Update.update (n := 125000) x0 x1 := by
  funext y
  unfold out0_2
  refine View.canon_apply_of_pieces (Cert.Update.update (n := 125000) x0 x1) _ ?_ y (cover0_2 _ _ y)
  intro p hp x
  rcases List.mem_cons.mp hp with rfl | hp
  · exact piece_col1 x0 x1 x
  · rcases List.mem_cons.mp hp with rfl | hp
    · exact piece_col0 x0 x1 x
    · exact absurd hp List.not_mem_nil

/-! ## From the blocks to the array -/

variable (m : (ℓ : Loc nD τ sig) → Buf (Elt F) ℓ) (ρ : Dev nD → PrngReg)

/-- The three windows' index maps over the grid: all move down the rows together, one block of 125000 rows a point, and
    none moves along the columns. -/
theorem index_facts : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 :=
  (by decide +kernel : ∀ t : Fin grid0.N, _)

/-- Each of the eight blocks of rows is some point's. -/
theorem index_onto : ∀ q : Fin 8, ∃ t : Fin cfg0.N, win0_2.index t = ![q.val, 0] :=
  (by decide +kernel : ∀ q : Fin 8, ∃ t : Fin grid0.N, win0_2.index t = ![q.val, 0])

/-- What point t writes back is block t of the update of the arrays the region finds: the blocks the body was given
    are rows 125000·t + (j 0) of those arrays, and the output block sits at the same rows. -/
theorem flushed_eq (c : Dev nD) (t : Fin cfg0.N) :
    (dats m 0 c).flushed 2 t
      = ((cfg0.win 2).blk t).view.read (Elt F) (Cert.Update.update (n := 1000000) (V m c main_arg0) (V m c main_v4)) := by
  rw [Value.flushed2]
  have e := out_eq (F := F) (iblk m c 0 t) (iblk m c 1 t)
  rw [e]
  obtain ⟨e0, e1, e2, e3, e4⟩ := index_facts t
  funext j
  refine Cert.Update.update_congr (n := 1000000) (k := 125000) (V m c main_arg0) (V m c main_v4) (iblk m c 0 t) (iblk m c 1 t)
    j (((cfg0.win 2).blk t).view.emb j) ?_ ?_ ?_
  · show (j 1).val = win0_2.index t (1 : Fin 2) * 2 + 1 * (j 1).val
    omega
  · show V m c main_arg0 (((cfg0.win 0).blk t).view.emb (ix2 (j 0) (0 : Fin 2))) = V m c main_arg0 _
    refine congrArg (V m c main_arg0) (funext fun a => Fin.ext ?_)
    match a with
    | ⟨0, _⟩ => show win0_0.index t (0 : Fin 2) * 125000 + 1 * (j 0).val = win0_2.index t (0 : Fin 2) * 125000 + 1 * (j 0).val; omega
    | ⟨1, _⟩ => show win0_0.index t (1 : Fin 2) * 2 + 1 * 0 = 0; omega
  · show V m c main_v4 (((cfg0.win 1).blk t).view.emb (ix2 (j 0) (0 : Fin 1))) = V m c main_v4 _
    refine congrArg (V m c main_v4) (funext fun a => Fin.ext ?_)
    match a with
    | ⟨0, _⟩ => show win0_1.index t (0 : Fin 2) * 125000 + 1 * (j 0).val = win0_2.index t (0 : Fin 2) * 125000 + 1 * (j 0).val; omega
    | ⟨1, _⟩ => show win0_1.index t (1 : Fin 2) * 1 + 1 * 0 = 0; omega

/-- An index of the array is in point t's block iff each coordinate is in the block's range on its axis. -/
theorem mem_block (t : Fin cfg0.N) (i : S1000000x2.Idx) :
    i ∈ ((cfg0.win 2).blk t).view.set ↔ ∀ a : Fin 2, win0_2.index t a * S125000x2.size a ≤ (i a).val
      ∧ (i a).val < win0_2.index t a * S125000x2.size a + S125000x2.size a := by
  show i ∈ ((View.whole main_v5).slice (win0_2.rect t)).set ↔ _
  rw [View.set_slice_whole, Rect.mem_set_unit]
  exact Iff.rfl

/-- Every entry of the array lies in the block of the point that owns its row: row r in block r / 125000. -/
theorem covered (i : S1000000x2.Idx) :
    ∃ t : Fin cfg0.N, (cfg0.win 2).flush t = true ∧ i ∈ ((cfg0.win 2).blk t).view.set := by
  have hi0 : (i 0).val < 1000000 := (i 0).isLt
  have hi1 : (i 1).val < 2 := (i 1).isLt
  obtain ⟨t, ht⟩ := index_onto ⟨(i 0).val / 125000, by omega⟩
  have q0 : win0_2.index t (0 : Fin 2) = (i 0).val / 125000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 125000 ≤ (i 0).val ∧ (i 0).val < win0_2.index t (0 : Fin 2) * 125000 + 125000; omega
  | ⟨1, _⟩ => show win0_2.index t (1 : Fin 2) * 2 ≤ (i 1).val ∧ (i 1).val < win0_2.index t (1 : Fin 2) * 2 + 2; omega

/-- The output array after the run is the update of the arrays the region finds. -/
theorem final (c : Dev nD) :
    (dats m 0 c).arrAt 2 cfg0.N = Cert.Update.update (n := 1000000) (V m c main_arg0) (V m c main_v4) :=
  (dats m 0 c).arrAt_eq_of_cover 2 _ (fun t _ => flushed_eq m c t) covered

/-! ## The arrays the region finds, and the run -/

/-- The aggregate column as the host computes it before the region: zeros, with every edge value added onto the row its
    destination index names (row 1 of the index pairs, laid out as a column of start indices). -/
def aggregate (x1 : (⟨S2x32000000, .i32⟩ : BufTy).Contents (Elt F)) (x2 : (⟨S32000000x1, .f32⟩ : BufTy).Contents (Elt F)) :
    (⟨S1000000x1, .f32⟩ : BufTy).Contents (Elt F) :=
  Host.scatterAdd scatter_S1000000x1_S32000000x1_S32000000x1_1_0_0_1
    (broadcastInDim S1000000x1 ![] bcast_S_S1000000x1 (constant S_ .f32 0x00000000#32))
    (broadcastInDim S32000000x1 ![0] bcast_S32000000_S32000000x1_0
      (shapeCast _ (extractStridedSlice S1x32000000 ![1, 0] x1 slices_S2x32000000_S1x32000000_1_0) shapeCasts_S1x32000000_S32000000))
    x2

/-- The region finds the aggregate column in the buffer the scatter wrote. -/
theorem found_aggregate (c : Dev nD) :
    (V m c main_v4 : S1000000x1.Idx → Elt F .f32)
      = aggregate (F := F) (m ((c : Thread nD τ).loc main_arg1)) (m ((c : Thread nD τ).loc main_arg2)) := by
  dsimp only [Gen.V, Gen.hostOps0]
  after_results
  rfl

/-- The kernel's run: the result array ends at the update of the vertex array by the aggregate column, both as
    launched, and the arguments end unchanged. -/
theorem run : θ_run defs (onTc (τ := τ) (main (F := F))) ⟨m, fun _ => 0, ρ⟩ fun r => ∀ c : Dev nD,
      r.2.mem ((c : Thread nD τ).loc main_v5)
        = Cert.Update.update (n := 1000000) (m ((c : Thread nD τ).loc main_arg0))
            (aggregate (F := F) (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final m c).trans (by rw [V_main_arg0, found_aggregate])), (h c).2⟩)
    (Value.run_blocks m ρ)

end Cert.KernelIdeal.Blocks

end
-- ==== Proof.LibConcatCols.lean ====
/-
  Two matrices with the same number of rows laid side by side, read at an entry.

  An [n, a] matrix X and an [n, b] matrix Y concatenated along the column axis give an [n, a + b] matrix whose entry
  (p, c) is X(p, c) when c < a and Y(p, c - a) otherwise: the row is kept and the column picks the piece.
-/
import Idealize.ShloMosaic.Lib.Pipeline.Value
import Idealize.ShloMosaic.Lib.ValueIdx

noncomputable section

namespace Cert.ConcatCols

open Idealize.ShloMosaic Idealize.ShloMosaic.ValueIdx

variable {α : Type}

/-- Entry (p, c) of [X | Y]: X(p, c) for a column of the first piece, Y(p, c - a) for one of the second. The total
    width is given by an equation so that a literal width (256 for 128 + 128) matches as it stands. -/
theorem concatenate_cols_apply {n a b t : Nat} (hab : t = a + b)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate ⟨2, ![n, t]⟩ 1 [⟨⟨2, ![n, a]⟩, x⟩, ⟨⟨2, ![n, b]⟩, y⟩] h (ix2 p c)
      = if hc : c.val < a then x (ix2 p ⟨c.val, hc⟩)
        else y (ix2 p ⟨c.val - a, by have := c.isLt; omega⟩) := by
  by_cases hc : c.val < a
  · rw [dif_pos hc]
    exact concatenate_pair_apply_left 1 x y h (ix2 p c) rfl (ix2 p ⟨c.val, hc⟩)
      (fun d => match d with | ⟨0, _⟩ => rfl | ⟨1, _⟩ => rfl)
  · rw [dif_neg hc]
    refine concatenate_pair_apply_right 1 x y h (ix2 p c) rfl rfl (ix2 p ⟨c.val - a, by have := c.isLt; omega⟩) ?_ ?_
    · intro d hd
      match d, hd with
      | ⟨0, _⟩, _ => rfl
      | ⟨1, _⟩, hd => exact absurd rfl hd
    · show (c.val - a) + a = c.val
      omega

end Cert.ConcatCols

end
-- ==== Proof.RefUpdate.lean ====
/-
  The reference's result is the vertex update of its arguments.

  The reference slices column 0 out of the vertex array, multiplies it entry by entry with the aggregate column (the
  scatter-sum of the edge values onto their destination rows, kept here as the closed term the program prints), and lays
  the column and the products side by side. Read at entry (p, q) that is: the column's entry (p, 0) for q = 0, which is
  the vertex array's entry (p, 0); and for q = 1 the product of that entry with the aggregate's entry (p, 0).
-/
import proofs.«174618_j91096256348959_1_alg».proof.Proof.Gen.ReferenceIdeal.Read
import proofs.«174618_j91096256348959_1_alg».proof.Proof.Update
import proofs.«174618_j91096256348959_1_alg».proof.Proof.LibConcatCols
import Idealize.ShloMosaic.Lib.ValueLayout

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- The sliced column at row p is the vertex array's entry (p, 0): the slice starts at column 0. -/
theorem column_apply (x0 : (⟨S1000000x2, .f32⟩ : BufTy).Contents (Elt F)) (p : Fin 1000000) :
    val_main_v0 (F := F) x0 (ix2 p (0 : Fin 1)) = x0 (ix2 p (0 : Fin 2)) := by
  unfold val_main_v0
  exact slice2_axis1_apply 0 x0 slices_S1000000x2_S1000000x1_0_0 p (0 : Fin 1) (0 : Fin 2) rfl

/-- The reference's last stage, as a function of the arguments, is the update of the vertex array by the aggregate
    column. Column 0 of the concatenation is the sliced column; column 1 is the product, whose row p multiplies the
    sliced column's entry by the aggregate's. -/
theorem stage_eq (x0 : (⟨S1000000x2, .f32⟩ : BufTy).Contents (Elt F)) (x1 : (⟨S2x32000000, .i32⟩ : BufTy).Contents (Elt F))
    (x2 : (⟨S32000000x1, .f32⟩ : BufTy).Contents (Elt F)) :
    val_main_v7 (F := F) x0 x1 x2 = Cert.Update.update x0 (val_main_v5 (F := F) x1 x2) := by
  funext i
  obtain ⟨p, q, rfl⟩ : ∃ (p : Fin 1000000) (q : Fin 2), i = ix2 p q := ⟨i 0, i 1, eq_ix2 i⟩
  unfold val_main_v7
  refine (Cert.ConcatCols.concatenate_cols_apply (a := 1) (b := 1) rfl (val_main_v0 (F := F) x0)
    (val_main_v6 (F := F) x0 x1 x2) concatenates_S1000000x1_S1000000x1_S1000000x2_d1 p q).trans ?_
  match q with
  | ⟨0, _⟩ =>
    rw [dif_pos (show (0 : Nat) < 1 by decide)]
    exact (column_apply x0 p).trans (Cert.Update.update_of_col0 x0 _ (ix2 p (0 : Fin 2)) rfl).symm
  | ⟨1, _⟩ =>
    rw [dif_neg (show ¬ (1 : Nat) < 1 by decide)]
    refine Eq.trans ?_ (Cert.Update.update_of_col1 x0 (val_main_v5 (F := F) x1 x2) (ix2 p (1 : Fin 2)) Nat.one_ne_zero
      (ix2 p (0 : Fin 2)) (ix2 p (0 : Fin 1)) rfl rfl rfl).symm
    show FloatOps.mulf (val_main_v0 (F := F) x0 (ix2 p (0 : Fin 1))) (val_main_v5 (F := F) x1 x2 (ix2 p (0 : Fin 1))) = _
    rw [column_apply]

end Cert.ReferenceIdeal.RefValue

end
-- ==== Proof.lean ====
/-
  A vertex update of a message-passing layer, computed by a kernel tiled over the rows and by a reference on whole
  arrays, is one function of the arguments.

  Both programs first form the same aggregate column on the host: zeros with every edge value added onto the row its
  destination index names. The reference then lays column 0 of the vertex array beside its entrywise product with the
  aggregate. The kernel does the same for 125000 rows at a time, eight times, writing column 0 and the product into the
  two columns of its output block. Entry (p, 0) of either result is the vertex array's entry (p, 0), and entry (p, 1)
  is that entry times the aggregate's entry in row p, the factors in the same order on both sides: the two results are
  equal by the definition of the product alone, with no law of arithmetic and no use of the inputs' finiteness. The
  aggregate is never opened: it is the same term of the arguments in both programs, whatever the indices are.

  The kernel's and the idealized kernel's runs terminate with the arguments unchanged by their generated frames; the
  reference's by its generated run. The idealization rewrote nothing, so that the idealized kernel is the kernel's
  sanctioned idealization holds trivially.
-/
import proofs.«174618_j91096256348959_1_alg».proof.Defs
import proofs.«174618_j91096256348959_1_alg».proof.Proof.Gen.Kernel
import proofs.«174618_j91096256348959_1_alg».proof.Proof.Gen.Kernel.Skeleton
import proofs.«174618_j91096256348959_1_alg».proof.Proof.Gen.Kernel.Launch
import proofs.«174618_j91096256348959_1_alg».proof.Proof.Gen.Kernel.Points
import proofs.«174618_j91096256348959_1_alg».proof.Proof.Gen.Kernel.Frame
import proofs.«174618_j91096256348959_1_alg».proof.Proof.Gen.KernelIdeal
import proofs.«174618_j91096256348959_1_alg».proof.Proof.Gen.KernelIdeal.Skeleton
import proofs.«174618_j91096256348959_1_alg».proof.Proof.Gen.KernelIdeal.Launch
import proofs.«174618_j91096256348959_1_alg».proof.Proof.Gen.KernelIdeal.Points
import proofs.«174618_j91096256348959_1_alg».proof.Proof.Gen.KernelIdeal.Frame
import proofs.«174618_j91096256348959_1_alg».proof.Proof.Gen.ReferenceIdeal
import proofs.«174618_j91096256348959_1_alg».proof.Proof.Gen.Pre_finite_inputs
import proofs.«174618_j91096256348959_1_alg».proof.Proof.Gen.KernelIdeal.Value
import proofs.«174618_j91096256348959_1_alg».proof.Proof.Gen.ReferenceIdeal.Run
import proofs.«174618_j91096256348959_1_alg».proof.Proof.Gen.ReferenceIdeal.Read
import proofs.«174618_j91096256348959_1_alg».proof.Proof.KernelUpdate
import proofs.«174618_j91096256348959_1_alg».proof.Proof.RefUpdate
import Idealize.ShloMosaic.Adequacy
import Idealize.ShloMosaic.Init

noncomputable section

namespace Cert.Proof

open Idealize.ShloMosaic Idealize.SL.Sem

/-- The kernel runs, and its arguments end unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The aggregate column the kernel's host operations leave and the one the reference computes are the same term of
    the index pairs and the edge values: zeros, the same column of destination indices, the same scatter-sum. -/
theorem aggregate_eq (x1 : (⟨Cert.KernelIdeal.S2x32000000, .i32⟩ : BufTy).Contents (Elt Ideal))
    (x2 : (⟨Cert.KernelIdeal.S32000000x1, .f32⟩ : BufTy).Contents (Elt Ideal)) :
    Cert.ReferenceIdeal.Read.val_main_v5 (F := Ideal) x1 x2 = Cert.KernelIdeal.Blocks.aggregate (F := Ideal) x1 x2 := rfl

/-- From memories that agree on the arguments both programs end with the update of the vertex array by the aggregate
    column: the kernel's array block by block, the reference's as its last stage read at an entry. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.stage_eq, (hagree c).1, (hagree c).2.1,
    (hagree c).2.2.1, aggregate_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
